-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x16 : Shape := ⟨3, ![4, 16384, 16]⟩
abbrev S64x16 : Shape := ⟨2, ![64, 16]⟩
abbrev S1x1x16x1 : Shape := ⟨4, ![1, 1, 16, 1]⟩
abbrev S_ : Shape := ⟨0, ![]⟩

class Facts : Prop where
  bcast_S_S4x16384x16 : S_.BroadcastsInDim S4x16384x16 (![] : Fin 0 → Fin S4x16384x16.rank)
  reducesTo_S4x16384x16_S_d0_1_2 : S4x16384x16.ReducesTo [0, 1, 2] S_
  h_S_ : 0 < S_.numel
  bcast_S_S64x16 : S_.BroadcastsInDim S64x16 (![] : Fin 0 → Fin S64x16.rank)
  reducesTo_S64x16_S_d0_1 : S64x16.ReducesTo [0, 1] S_
  bcast_S_S1x1x16x1 : S_.BroadcastsInDim S1x1x16x1 (![] : Fin 0 → Fin S1x1x16x1.rank)
  reducesTo_S1x1x16x1_S_d0_1_2_3 : S1x1x16x1.ReducesTo [0, 1, 2, 3] S_

variable [Facts]

def fn {F : FTy → Type} [FloatOps F] (main_arg0 : FVec F S4x16384x16 .f32) (main_arg1 : FVec F S64x16 .f32) (main_arg2 : FVec F S1x1x16x1 .f32) : IVec S_ 1 :=
  let main_v0 : FVec F S4x16384x16 .f32 := Host.absf main_arg0
  let main_cst : FVec F S_ .f32 := constant S_ .f32 0x7F800000#32
  let main_v1 : FVec F S4x16384x16 .f32 := broadcastInDim S4x16384x16 ![] bcast_S_S4x16384x16 main_cst
  let main_v2 : IVec S4x16384x16 1 := cmpf .olt main_v0 main_v1
  let main_c : IVec S_ 1 := constantI S_ 1 1#1
  let main_v3 : IVec S_ 1 := (fun x v => Host.reduce IntOp.andi x v reducesTo_S4x16384x16_S_d0_1_2 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S1x1x16x1 .f32 := Host.absf main_arg2
  let main_cst_2 : FVec F S_ .f32 := constant S_ .f32 0x7F800000#32
  let main_v10 : FVec F S1x1x16x1 .f32 := broadcastInDim S1x1x16x1 ![] bcast_S_S1x1x16x1 main_cst_2
  let main_v11 : IVec S1x1x16x1 1 := cmpf .olt main_v9 main_v10
  let main_c_3 : IVec S_ 1 := constantI S_ 1 1#1
  let main_v12 : IVec S_ 1 := (fun x v => Host.reduce IntOp.andi x v reducesTo_S1x1x16x1_S_d0_1_2_3 h_S_) main_v11 main_c_3
  let main_v13 : IVec S_ 1 := andi main_v8 main_v12
  main_v13
-- ==== Kernel.lean ====
abbrev S4x16384x16 : Shape := ⟨3, ![4, 16384, 16]⟩
abbrev S64x16 : Shape := ⟨2, ![64, 16]⟩
abbrev S1x1x16x1 : Shape := ⟨4, ![1, 1, 16, 1]⟩
abbrev S1x16 : Shape := ⟨2, ![1, 16]⟩
abbrev S4x16384x64 : Shape := ⟨3, ![4, 16384, 64]⟩
abbrev S1x4096x16 : Shape := ⟨3, ![1, 4096, 16]⟩
abbrev S1x4096x64 : Shape := ⟨3, ![1, 4096, 64]⟩
abbrev S16 : Shape := ⟨1, ![16]⟩
abbrev S4096x16 : Shape := ⟨2, ![4096, 16]⟩
abbrev S4096x64 : Shape := ⟨2, ![4096, 64]⟩
abbrev S1 : Shape := ⟨1, ![1]⟩
abbrev S64x1 : Shape := ⟨2, ![64, 1]⟩
abbrev S64 : Shape := ⟨1, ![64]⟩
abbrev S4096x1 : Shape := ⟨2, ![4096, 1]⟩
abbrev S1x64 : Shape := ⟨2, ![1, 64]⟩

abbrev nBuf : Space → Nat
  | .hbm => 6
  | .vmem => 8
  | .smem => 0
  | _ => 0

abbrev bufTy : (tb : Table) → Fin (tcTables nBuf tb) → BufTy
  | .hbm, ⟨0, _⟩ => ⟨S4x16384x16, .f32⟩
  | .hbm, ⟨1, _⟩ => ⟨S64x16, .f32⟩
  | .hbm, ⟨2, _⟩ => ⟨S1x1x16x1, .f32⟩
  | .hbm, ⟨3, _⟩ => ⟨S1x16, .f32⟩
  | .hbm, ⟨4, _⟩ => ⟨S4x16384x64, .f32⟩
  | .hbm, ⟨5, _⟩ => ⟨S4x16384x16, .f32⟩
  | .local _ .vmem, ⟨0, _⟩ => ⟨S1x4096x16, .f32⟩
  | .local _ .vmem, ⟨1, _⟩ => ⟨S1x4096x16, .f32⟩
  | .local _ .vmem, ⟨2, _⟩ => ⟨S64x16, .f32⟩
  | .local _ .vmem, ⟨3, _⟩ => ⟨S1x16, .f32⟩
  | .local _ .vmem, ⟨4, _⟩ => ⟨S1x4096x64, .f32⟩
  | .local _ .vmem, ⟨5, _⟩ => ⟨S1x4096x64, .f32⟩
  | .local _ .vmem, ⟨6, _⟩ => ⟨S1x4096x16, .f32⟩
  | .local _ .vmem, ⟨7, _⟩ => ⟨S1x4096x16, .f32⟩
  | _, _ => ⟨S4x16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1x1x16x1_S1x16 : S1x1x16x1.ShapeCasts S1x16
  inb_S1x16_S1x16_0_0 : ∀ a, (![0, 0] : Fin 2 → Nat) a + S1x16.size a ≤ S1x16.size a
  h_S1x16 : 0 < S1x16.numel
  shapeCasts_S1x16_S16 : S1x16.ShapeCasts S16
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  shapeCasts_S16_S1x16 : S16.ShapeCasts S1x16
  broadcasts_S1x16_S4096x16 : S1x16.Broadcasts S4096x16
  shapeCasts_S4096x16_S1x4096x16 : S4096x16.ShapeCasts S1x4096x16
  inb_S64x16_S64x16_0_0 : ∀ a, (![0, 0] : Fin 2 → Nat) a + S64x16.size a ≤ S64x16.size a
  h_S64x16 : 0 < S64x16.numel
  slices_S16_o0_S1 : S16.Slices ![0] S1
  inpos_S1_p0 : ∀ a, (![0] : Fin 1 → Nat) a < S1.size a
  slices_S64x16_o0_0_S64x1 : S64x16.Slices ![0, 0] S64x1
  shapeCasts_S64x1_S64 : S64x1.ShapeCasts S64
  slices_S4096x16_o0_0_S4096x1 : S4096x16.Slices ![0, 0] S4096x1
  shapeCasts_S64_S1x64 : S64.ShapeCasts S1x64
  broadcasts_S4096x1_S4096x64 : S4096x1.Broadcasts S4096x64
  broadcasts_S1x64_S4096x64 : S1x64.Broadcasts S4096x64
  slices_S16_o1_S1 : S16.Slices ![1] S1
  slices_S64x16_o0_1_S64x1 : S64x16.Slices ![0, 1] S64x1
  slices_S4096x16_o0_1_S4096x1 : S4096x16.Slices ![0, 1] S4096x1
  slices_S16_o2_S1 : S16.Slices ![2] S1
  slices_S64x16_o0_2_S64x1 : S64x16.Slices ![0, 2] S64x1
  slices_S4096x16_o0_2_S4096x1 : S4096x16.Slices ![0, 2] S4096x1
  slices_S16_o3_S1 : S16.Slices ![3] S1
  slices_S64x16_o0_3_S64x1 : S64x16.Slices ![0, 3] S64x1
  slices_S4096x16_o0_3_S4096x1 : S4096x16.Slices ![0, 3] S4096x1
  slices_S16_o4_S1 : S16.Slices ![4] S1
  slices_S64x16_o0_4_S64x1 : S64x16.Slices ![0, 4] S64x1
  slices_S4096x16_o0_4_S4096x1 : S4096x16.Slices ![0, 4] S4096x1
  slices_S16_o5_S1 : S16.Slices ![5] S1
  slices_S64x16_o0_5_S64x1 : S64x16.Slices ![0, 5] S64x1
  slices_S4096x16_o0_5_S4096x1 : S4096x16.Slices ![0, 5] S4096x1
  slices_S16_o6_S1 : S16.Slices ![6] S1
  slices_S64x16_o0_6_S64x1 : S64x16.Slices ![0, 6] S64x1
  slices_S4096x16_o0_6_S4096x1 : S4096x16.Slices ![0, 6] S4096x1
  slices_S16_o7_S1 : S16.Slices ![7] S1
  slices_S64x16_o0_7_S64x1 : S64x16.Slices ![0, 7] S64x1
  slices_S4096x16_o0_7_S4096x1 : S4096x16.Slices ![0, 7] S4096x1
  slices_S16_o8_S1 : S16.Slices ![8] S1
  slices_S64x16_o0_8_S64x1 : S64x16.Slices ![0, 8] S64x1
  slices_S4096x16_o0_8_S4096x1 : S4096x16.Slices ![0, 8] S4096x1
  slices_S16_o9_S1 : S16.Slices ![9] S1
  slices_S64x16_o0_9_S64x1 : S64x16.Slices ![0, 9] S64x1
  slices_S4096x16_o0_9_S4096x1 : S4096x16.Slices ![0, 9] S4096x1
  slices_S16_o10_S1 : S16.Slices ![10] S1
  slices_S64x16_o0_10_S64x1 : S64x16.Slices ![0, 10] S64x1
  slices_S4096x16_o0_10_S4096x1 : S4096x16.Slices ![0, 10] S4096x1
  slices_S16_o11_S1 : S16.Slices ![11] S1
  slices_S64x16_o0_11_S64x1 : S64x16.Slices ![0, 11] S64x1
  slices_S4096x16_o0_11_S4096x1 : S4096x16.Slices ![0, 11] S4096x1
  slices_S16_o12_S1 : S16.Slices ![12] S1
  slices_S64x16_o0_12_S64x1 : S64x16.Slices ![0, 12] S64x1
  slices_S4096x16_o0_12_S4096x1 : S4096x16.Slices ![0, 12] S4096x1
  slices_S16_o13_S1 : S16.Slices ![13] S1
  slices_S64x16_o0_13_S64x1 : S64x16.Slices ![0, 13] S64x1
  slices_S4096x16_o0_13_S4096x1 : S4096x16.Slices ![0, 13] S4096x1
  slices_S16_o14_S1 : S16.Slices ![14] S1
  slices_S64x16_o0_14_S64x1 : S64x16.Slices ![0, 14] S64x1
  slices_S4096x16_o0_14_S4096x1 : S4096x16.Slices ![0, 14] S4096x1
  slices_S16_o15_S1 : S16.Slices ![15] S1
  slices_S64x16_o0_15_S64x1 : S64x16.Slices ![0, 15] S64x1
  slices_S4096x16_o0_15_S4096x1 : S4096x16.Slices ![0, 15] S4096x1
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x16.size a ≤ S4x16384x16.size a
  hwx0_0 : ∀ i : grid0.Coords, EltTy.bits .f32 = 32 ∨ (Rect.block (s := S4x16384x16) S1x4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x64.size a ≤ S4x16384x64.size a
  hwx0_3 : ∀ i : grid0.Coords, EltTy.bits .f32 = 32 ∨ (Rect.block (s := S4x16384x64) S1x4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x16.size a ≤ S4x16384x16.size a
  hwx0_4 : ∀ i : grid0.Coords, EltTy.bits .f32 = 32 ∨ (Rect.block (s := S4x16384x16) S1x4096x16.size (cc0_transform_4 i) (hinb0_4 i)).WholeWords (EltTy.packing .f32)

variable [Facts₀]

abbrev win0_0 : Pipeline.Window sig grid0 :=
  Pipeline.Window.ofSpec (Memref.whole main_arg0) S1x4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x4096x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x4096x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16384x16 : Shape := ⟨3, ![4, 16384, 16]⟩
abbrev S64x16 : Shape := ⟨2, ![64, 16]⟩
abbrev S1x1x16x1 : Shape := ⟨4, ![1, 1, 16, 1]⟩
abbrev S16 : Shape := ⟨1, ![16]⟩
abbrev S1x1x16 : Shape := ⟨3, ![1, 1, 16]⟩
abbrev S16x1 : Shape := ⟨2, ![16, 1]⟩
abbrev S16x64 : Shape := ⟨2, ![16, 64]⟩
abbrev S4x16384x16x1 : Shape := ⟨4, ![4, 16384, 16, 1]⟩
abbrev S1x1x16x64 : Shape := ⟨4, ![1, 1, 16, 64]⟩
abbrev S4x16384x16x64 : Shape := ⟨4, ![4, 16384, 16, 64]⟩
abbrev S_ : Shape := ⟨0, ![]⟩
abbrev S4x16384x64 : Shape := ⟨3, ![4, 16384, 64]⟩

abbrev nBuf : Space → Nat
  | .hbm => 19
  | .vmem => 0
  | .smem => 0
  | _ => 0

abbrev bufTy : (tb : Table) → Fin (tcTables nBuf tb) → BufTy
  | .hbm, ⟨0, _⟩ => ⟨S4x16384x16, .f32⟩
  | .hbm, ⟨1, _⟩ => ⟨S64x16, .f32⟩
  | .hbm, ⟨2, _⟩ => ⟨S1x1x16x1, .f32⟩
  | .hbm, ⟨3, _⟩ => ⟨S16, .f32⟩
  | .hbm, ⟨4, _⟩ => ⟨S1x1x16, .f32⟩
  | .hbm, ⟨5, _⟩ => ⟨S4x16384x16, .f32⟩
  | .hbm, ⟨6, _⟩ => ⟨S4x16384x16, .f32⟩
  | .hbm, ⟨7, _⟩ => ⟨S16x1, .f32⟩
  | .hbm, ⟨8, _⟩ => ⟨S16x64, .f32⟩
  | .hbm, ⟨9, _⟩ => ⟨S16x64, .f32⟩
  | .hbm, ⟨10, _⟩ => ⟨S16x64, .f32⟩
  | .hbm, ⟨11, _⟩ => ⟨S4x16384x16x1, .f32⟩
  | .hbm, ⟨12, _⟩ => ⟨S1x1x16x64, .f32⟩
  | .hbm, ⟨13, _⟩ => ⟨S4x16384x16x64, .f32⟩
  | .hbm, ⟨14, _⟩ => ⟨S4x16384x16x64, .f32⟩
  | .hbm, ⟨15, _⟩ => ⟨S4x16384x16x64, .f32⟩
  | .hbm, ⟨16, _⟩ => ⟨S4x16384x16x64, .f32⟩
  | .hbm, ⟨17, _⟩ => ⟨S_, .f32⟩
  | .hbm, ⟨18, _⟩ => ⟨S4x16384x64, .f32⟩
  | _, _ => ⟨S4x16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  shapeCasts_S1x1x16x1_S16 : S1x1x16x1.ShapeCasts S16
  bcast_S16_S1x1x16_2 : S16.BroadcastsInDim S1x1x16 (![2] : Fin 1 → Fin S1x1x16.rank)
  bcast_S1x1x16_S4x16384x16_0_1_2 : S1x1x16.BroadcastsInDim S4x16384x16 (![0, 1, 2] : Fin 3 → Fin S4x16384x16.rank)
  bcast_S16_S16x1_0 : S16.BroadcastsInDim S16x1 (![0] : Fin 1 → Fin S16x1.rank)
  transposes_S64x16_S16x64_1_0 : S64x16.Transposes [1, 0] S16x64
  bcast_S16x1_S16x64_0_1 : S16x1.BroadcastsInDim S16x64 (![0, 1] : Fin 2 → Fin S16x64.rank)
  bcast_S4x16384x16_S4x16384x16x1_0_1_2 : S4x16384x16.BroadcastsInDim S4x16384x16x1 (![0, 1, 2] : Fin 3 → Fin S4x16384x16x1.rank)
  bcast_S16x64_S1x1x16x64_2_3 : S16x64.BroadcastsInDim S1x1x16x64 (![2, 3] : Fin 2 → Fin S1x1x16x64.rank)
  bcast_S4x16384x16x1_S4x16384x16x64_0_1_2_3 : S4x16384x16x1.BroadcastsInDim S4x16384x16x64 (![0, 1, 2, 3] : Fin 4 → Fin S4x16384x16x64.rank)
  bcast_S1x1x16x64_S4x16384x16x64_0_1_2_3 : S1x1x16x64.BroadcastsInDim S4x16384x16x64 (![0, 1, 2, 3] : Fin 4 → Fin S4x16384x16x64.rank)
  reducesTo_S4x16384x16x64_S4x16384x64_d2 : S4x16384x16x64.ReducesTo [2] S4x16384x64
  h_S_ : 0 < S_.numel

variable [Facts₀]

class Facts : Prop extends Facts₀ where

variable [Facts]
-- ==== Proof.RbfGrid.lean ====
/-
  The grid's index maps, decided once over the sixteen points, and the scale vector as the region finds it.

  Point t = (b, j) of the 4 x 4 grid works on rows 4096 j .. 4096 j + 4095 of batch entry b: the input window and both
  output windows sit at block (b, j, 0), the centres and the scale row are whole.  The scale row is the host's
  reshape of the [1, 1, 16, 1] argument to [1, 16], so its entry (0, d) is the argument's entry (0, 0, d, 0).
-/
import proofs.«105791_j71038759076230_1_alg».proof.Proof.Gen.KernelIdeal.Value
import Idealize.ShloMosaic.Lib.Pipeline.Value
import Idealize.ShloMosaic.Lib.ValueLayout
import Idealize.ShloMosaic.Lib.StableHlo.Run

noncomputable section

namespace Cert.Rbf

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the grid: the input tile and both output tiles sit at the same block, whose batch and
    row-block indices are at most 3; the centres and the scale row do not move. -/
theorem grid_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 3 ∧ win0_3.index t (1 : Fin 3) ≤ 3 :=
  (by decide +kernel : ∀ t : Fin grid0.N, _)

/-- Every (batch, row-block) pair is some point's block, for the squared-distance window … -/
theorem onto3 : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-- … and for the scaled-input window. -/
theorem onto4 : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

/-- The per-feature scale as the region finds it: entry (0, d) of the reshaped scale row. -/
def scaleAt (c : Dev nD) : Fin 16 → EReal := fun d => V m c main_v0 (ix2 (0 : Fin 1) d)

/-- The scale row is the reshape of the scale argument. -/
theorem scaleRow_eq (c : Dev nD) :
    (V m c main_v0 : S1x16.Idx → EReal) = shapeCast S1x16 (m ((c : Thread nD τ).loc main_arg2)) shapeCasts_S1x1x16x1_S1x16 := by
  dsimp only [Gen.V, Gen.hostOps0]
  after_results
  rfl

/-- So the scale of feature d is the argument's entry (0, 0, d, 0). -/
theorem scaleAt_eq (c : Dev nD) (d : Fin 16) :
    scaleAt m c d = m ((c : Thread nD τ).loc main_arg2) (ix4 (0 : Fin 1) (0 : Fin 1) d (0 : Fin 1)) := by
  unfold scaleAt
  rw [scaleRow_eq]
  have key : ∀ x : S1x1x16x1.Idx → EReal,
      shapeCast S1x16 x shapeCasts_S1x1x16x1_S1x16 (ix2 (0 : Fin 1) d) = x (ix4 (0 : Fin 1) (0 : Fin 1) d (0 : Fin 1)) :=
    fun x => shapeCast_apply x _ _ _ (by
      rw [Shape.rowMajor_val_four, Shape.rowMajor_val_two]
      show ((0 * 1 + 0) * 16 + d.val) * 1 + 0 = 0 * 16 + d.val
      omega)
  exact key _

end Cert.Rbf

end
-- ==== Proof.LibKeepdims.lean ====
/-
  Column ("keepdims") layouts read at an index, and a row sum read at an index, generic in the sizes.

  A row-wise reduction that keeps its axis produces an `[a]` vector viewed as an `[a, 1]` column; the column is then
  viewed as a `[1, a]` row, or spread over the columns of an `[a, b]` matrix.  Each of these reads ONE entry of
  its operand at each index of its result:
    · `[a] → [a, 1]` at (i, u) reads the operand at i;
    · `[a, 1] → [1, a]` at (u, i) reads the operand at (i, 0);
    · `[a, 1] → [a, b]` (a broadcast) at (i, j) reads the operand at (i, 0);
  and a sum of an `[a, b]` matrix along its second axis, read at i over the extended reals, is the sum over the b
  columns of the entries of row i.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`: both have row-major
    position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of an `[a, b]` matrix along its second axis, read at `i`, is the sum over the `b`
    columns of row `i`'s entries (the accumulator word being the sum's neutral element). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun d => Fin.ext (by
      match d with
      | ⟨0, _⟩ => rfl
      | ⟨1, _⟩ => rfl)))

end Cert.LibKeepdims

end
-- ==== Proof.LibColumnVec.lean ====
/-
  A one-column matrix flattened to a vector, read at an index, generic in the length.

  An `[a, 1]` column and the `[a]` vector of its entries have the same row-major order, so the vector at `i` is
  the column at `(i, 0)`.
-/
import Idealize.ShloMosaic.Lib.Pipeline.Value
import Idealize.ShloMosaic.Lib.ValueIdx

noncomputable section

namespace Cert.LibColumnVec

open Idealize.ShloMosaic Idealize.ShloMosaic.ValueIdx

variable {α : Type}

/-- An `[a, 1]` column cast to the vector `[a]` reads, at `i`, the column's entry of row `i`: both have row-major
    position `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnVec

end
-- ==== Proof.RbfTerm.lean ====
/-
  One feature's contribution to a squared distance, read at an index.

  For a feature d the body takes column d of the scaled tile h (a [4096, 1] column spread over 64 lanes), the scale
  s d times column d of the centres (a [64] vector laid as a [1, 64] row and spread over 4096 rows), and subtracts:
  at (p, q) this is  h(p, d) - s(d) * centre(q, d).
-/
import proofs.«105791_j71038759076230_1_alg».proof.Proof.Gen.KernelIdeal.Skeleton
import proofs.«105791_j71038759076230_1_alg».proof.Proof.LibKeepdims
import proofs.«105791_j71038759076230_1_alg».proof.Proof.LibColumnVec
import Idealize.ShloMosaic.Lib.ValueLayout
import Idealize.ShloMosaic.Lib.ValueIdx

noncomputable section

namespace Cert.Rbf

open Idealize.ShloMosaic Idealize.ShloMosaic.ValueIdx Cert.KernelIdeal

/-- Entry d of the scale vector, taken out as a one-element slice and then as a scalar. -/
theorem pick_apply (d : ℕ) (hd : d < 16) (s : FVec Ideal S16 .f32) (h1 : S16.Slices ![d] S1)
    (e1 : ∀ a, (![0] : Fin 1 → Nat) a < S1.size a) :
    extractAt ![0] (extractStridedSlice S1 ![d] s h1) e1 = s (ix1 (⟨d, hd⟩ : Fin 16)) := by
  unfold extractAt
  refine extractStridedSlice_apply ![d] s h1 _ (ix1 (⟨d, hd⟩ : Fin 16)) (fun a => ?_)
  match a with
  | ⟨0, _⟩ => rfl

/-- Feature d's difference at (p, q): the scaled tile's entry (p, d) minus scale d times centre q's entry d. -/
theorem diff_apply (d : ℕ) (hd : d < 16) (s : FVec Ideal S16 .f32) (h : FVec Ideal S4096x16 .f32) (cen : FVec Ideal S64x16 .f32)
    (h1 : S16.Slices ![d] S1) (h2 : S64x16.Slices ![0, d] S64x1) (h3 : S4096x16.Slices ![0, d] S4096x1)
    (e1 : ∀ a, (![0] : Fin 1 → Nat) a < S1.size a) (c1 : S64x1.ShapeCasts S64) (c2 : S64.ShapeCasts S1x64)
    (b1 : S4096x1.Broadcasts S4096x64) (b2 : S1x64.Broadcasts S4096x64) (p : Fin 4096) (q : Fin 64) :
    subf (broadcastTo S4096x64 (extractStridedSlice S4096x1 ![0, d] h h3) b1)
         (broadcastTo S4096x64 (shapeCast S1x64 (mulf (broadcast S64 (extractAt ![0] (extractStridedSlice S1 ![d] s h1) e1))
             (shapeCast S64 (extractStridedSlice S64x1 ![0, d] cen h2) c1)) c2) b2) (ix2 p q)
      = h (ix2 p (⟨d, hd⟩ : Fin 16)) - s (ix1 (⟨d, hd⟩ : Fin 16)) * cen (ix2 q (⟨d, hd⟩ : Fin 16)) := by
  rw [subf_apply, LibKeepdims.broadcastTo_a1_ab_apply, broadcastTo_1b_ab_apply, shapeCast_a_1a_apply, mulf_apply, broadcast_apply,
    LibColumnVec.shapeCast_a1_a_apply, pick_apply d hd s h1 e1,
    slice2_axis1_apply d h h3 p (0 : Fin 1) (⟨d, hd⟩ : Fin 16) rfl, slice2_axis1_apply d cen h2 q (0 : Fin 1) (⟨d, hd⟩ : Fin 16) rfl]

end Cert.Rbf

end
-- ==== Proof.RbfBody.lean ====
/-
  The body's squared-distance payload read at an index.

  With s the scale vector and h = x * s the scaled tile, the body adds, feature after feature and starting from a
  zero tile, the square of  h(p, d) - s(d) * centre(q, d).  The printed body is cut into consecutive stretches; each
  stretch adds a few features' squares to the running tile it is handed, and the last one lays the [4096, 64] tile
  out as a [1, 4096, 64] block.  Read at (p, q), the whole payload is the zero word plus the sixteen squares in
  feature order, and each entry of h and s is read back to the loaded blocks.
-/
import proofs.«105791_j71038759076230_1_alg».proof.Proof.RbfTerm

noncomputable section

namespace Cert.Rbf

open Idealize.ShloMosaic Idealize.ShloMosaic.ValueIdx Cert.KernelIdeal Cert.KernelIdeal.Gen

/-- Feature d's difference at (p, q). -/
def dif (s : FVec Ideal S16 .f32) (h : FVec Ideal S4096x16 .f32) (cen : FVec Ideal S64x16 .f32) (p : Fin 4096) (q : Fin 64)
    (d : Fin 16) : EReal :=
  h (ix2 p d) - s (ix1 d) * cen (ix2 q d)

/-- Feature d's square at (p, q). -/
def sqr (s : FVec Ideal S16 .f32) (h : FVec Ideal S4096x16 .f32) (cen : FVec Ideal S64x16 .f32) (p : Fin 4096) (q : Fin 64)
    (d : Fin 16) : EReal :=
  dif s h cen p q d * dif s h cen p q d

variable (x0 : Vec Ideal S1x4096x16 .f32) (x1 : Vec Ideal S64x16 .f32) (x2 : Vec Ideal S1x16 .f32)

/-- The scale vector's entry d is the loaded [1, 16] row's entry (0, d). -/
theorem scale_apply (d : Fin 16) : k0_pay1 x2 (ix1 d) = x2 (ix2 (0 : Fin 1) d) := by
  unfold k0_pay1
  exact shapeCast_1a_a_apply x2 _ d

/-- The scaled tile at (p, d) is the loaded tile's entry times the scale's. -/
theorem scaled_apply (p : Fin 4096) (d : Fin 16) :
    k0_pay2 x2 x0 (ix2 p d) = x0 (ix3 (0 : Fin 1) p d) * x2 (ix2 (0 : Fin 1) d) := by
  unfold k0_pay2 k0_pay1
  try dsimp only
  rw [mulf_apply, shapeCast_1ab_ab_apply, broadcastTo_1b_ab_apply, shapeCast_a_1a_apply, shapeCast_1a_a_apply]

/-- The first stretch: the zero tile plus the squares of features 0 and 1. -/
theorem acc_0_1 (p : Fin 4096) (q : Fin 64) :
    k0_pay4 x2 x0 x1 (ix2 p q)
      = Ideal.ofBits .f32 0x00000000#32 + sqr (k0_pay1 x2) (k0_pay2 x2 x0) x1 p q ⟨0, by decide⟩
        + sqr (k0_pay1 x2) (k0_pay2 x2 x0) x1 p q ⟨1, by decide⟩ := by
  unfold k0_pay4
  try dsimp only
  rw [addf_apply, addf_apply, mulf_apply, mulf_apply, diff_apply 0 (by decide), diff_apply 1 (by decide), broadcast_apply]
  rfl

/-- The second stretch adds the squares of features 2 to 6 to the tile it is handed. -/
theorem acc_2_6 (acc : FVec Ideal S4096x64 .f32) (p : Fin 4096) (q : Fin 64) :
    k0_pay7 (k0_pay1 x2) (k0_pay2 x2 x0) x1 acc (k0_pay5 x2 x0) (k0_pay6 x2 x1) (ix2 p q)
      = acc (ix2 p q) + sqr (k0_pay1 x2) (k0_pay2 x2 x0) x1 p q ⟨2, by decide⟩
        + sqr (k0_pay1 x2) (k0_pay2 x2 x0) x1 p q ⟨3, by decide⟩
        + sqr (k0_pay1 x2) (k0_pay2 x2 x0) x1 p q ⟨4, by decide⟩
        + sqr (k0_pay1 x2) (k0_pay2 x2 x0) x1 p q ⟨5, by decide⟩
        + sqr (k0_pay1 x2) (k0_pay2 x2 x0) x1 p q ⟨6, by decide⟩ := by
  unfold k0_pay7 k0_pay5 k0_pay6
  try dsimp only
  rw [addf_apply, addf_apply, addf_apply, addf_apply, addf_apply, mulf_apply, mulf_apply, mulf_apply, mulf_apply, mulf_apply,
    diff_apply 2 (by decide), diff_apply 3 (by decide), diff_apply 4 (by decide), diff_apply 5 (by decide), diff_apply 6 (by decide)]
  rfl

/-- The third stretch adds the squares of features 7 to 10. -/
theorem acc_7_10 (acc : FVec Ideal S4096x64 .f32) (p : Fin 4096) (q : Fin 64) :
    k0_pay10 (k0_pay1 x2) (k0_pay2 x2 x0) x1 acc (k0_pay8 (k0_pay1 x2)) (k0_pay9 x1) (ix2 p q)
      = acc (ix2 p q) + sqr (k0_pay1 x2) (k0_pay2 x2 x0) x1 p q ⟨7, by decide⟩
        + sqr (k0_pay1 x2) (k0_pay2 x2 x0) x1 p q ⟨8, by decide⟩
        + sqr (k0_pay1 x2) (k0_pay2 x2 x0) x1 p q ⟨9, by decide⟩
        + sqr (k0_pay1 x2) (k0_pay2 x2 x0) x1 p q ⟨10, by decide⟩ := by
  unfold k0_pay10 k0_pay8 k0_pay9
  try dsimp only
  rw [addf_apply, addf_apply, addf_apply, addf_apply, mulf_apply, mulf_apply, mulf_apply, mulf_apply,
    diff_apply 7 (by decide), diff_apply 8 (by decide), diff_apply 9 (by decide), diff_apply 10 (by decide)]
  rfl

/-- Feature 11's difference, handed from the third stretch to the last. -/
theorem dif_11 (p : Fin 4096) (q : Fin 64) :
    k0_pay11 (k0_pay1 x2) (k0_pay2 x2 x0) x1 (ix2 p q) = dif (k0_pay1 x2) (k0_pay2 x2 x0) x1 p q ⟨11, by decide⟩ := by
  unfold k0_pay11
  try dsimp only
  rw [diff_apply 11 (by decide)]
  rfl

/-- The last stretch squares the difference it is handed, adds the squares of features 12 to 15, and lays the tile
    out as a [1, 4096, 64] block. -/
theorem acc_11_15 (acc dd : FVec Ideal S4096x64 .f32) (u : Fin 1) (p : Fin 4096) (q : Fin 64) :
    k0_pay12 (k0_pay1 x2) (k0_pay2 x2 x0) x1 acc dd (ix3 u p q)
      = acc (ix2 p q) + dd (ix2 p q) * dd (ix2 p q) + sqr (k0_pay1 x2) (k0_pay2 x2 x0) x1 p q ⟨12, by decide⟩
        + sqr (k0_pay1 x2) (k0_pay2 x2 x0) x1 p q ⟨13, by decide⟩
        + sqr (k0_pay1 x2) (k0_pay2 x2 x0) x1 p q ⟨14, by decide⟩
        + sqr (k0_pay1 x2) (k0_pay2 x2 x0) x1 p q ⟨15, by decide⟩ := by
  unfold k0_pay12
  try dsimp only
  rw [shapeCast_ab_1ab_apply, addf_apply, addf_apply, addf_apply, addf_apply, addf_apply, mulf_apply, mulf_apply, mulf_apply,
    mulf_apply, mulf_apply, diff_apply 12 (by decide), diff_apply 13 (by decide), diff_apply 14 (by decide), diff_apply 15 (by decide)]
  rfl

end Cert.Rbf

end
-- ==== Proof.RbfSpec.lean ====
/-
  The two results as functions of the argument arrays, index by index, over the extended reals.

  With x : [4, 16384, 16] the inputs, c : [64, 16] the centres and s : Fin 16 → EReal the per-feature scale,
    Hx(b, n, d)  = x(b, n, d) * s(d)
    O(b, n, k)   = 0 + Σ_d (x(b, n, d) * s(d) - s(d) * c(k, d))²
  (the leading zero is the accumulator's initial word, kept as a word).  A left-nested sum of sixteen terms onto a
  start value is the start value plus the sum over Fin 16.
-/
import Idealize.ShloMosaic.PureOps.Ideal
import Idealize.ShloMosaic.Lib.ValueIdx

noncomputable section

open scoped BigOperators

namespace Cert.Rbf

open Idealize.ShloMosaic Idealize.ShloMosaic.ValueIdx

/-- One feature's squared difference between a scaled input entry and a scaled centre entry. -/
def sqTerm (xv sv cv : EReal) : EReal := (xv * sv - sv * cv) * (xv * sv - sv * cv)

/-- The scaled inputs. -/
def specHx (x : FVec Ideal ⟨3, ![4, 16384, 16]⟩ .f32) (s : Fin 16 → EReal) : FVec Ideal ⟨3, ![4, 16384, 16]⟩ .f32 :=
  fun i => x i * s ⟨(i 2).val, (i 2).isLt⟩

/-- The squared distances of every scaled input row to every scaled centre. -/
def specO (x : FVec Ideal ⟨3, ![4, 16384, 16]⟩ .f32) (c : FVec Ideal ⟨2, ![64, 16]⟩ .f32) (s : Fin 16 → EReal) :
    FVec Ideal ⟨3, ![4, 16384, 64]⟩ .f32 :=
  fun i => Ideal.ofBits .f32 0x00000000#32
    + ∑ d : Fin 16, sqTerm (x (ix3 (⟨(i 0).val, (i 0).isLt⟩ : Fin 4) (⟨(i 1).val, (i 1).isLt⟩ : Fin 16384) d)) (s d)
        (c (ix2 (⟨(i 2).val, (i 2).isLt⟩ : Fin 64) d))

/-- Sixteen terms added one after the other onto a start value are the start value plus their sum. -/
theorem chain16 (z : EReal) (f : Fin 16 → EReal) :
    z + f ⟨0, by decide⟩ + f ⟨1, by decide⟩ + f ⟨2, by decide⟩ + f ⟨3, by decide⟩ + f ⟨4, by decide⟩ + f ⟨5, by decide⟩
      + f ⟨6, by decide⟩ + f ⟨7, by decide⟩ + f ⟨8, by decide⟩ + f ⟨9, by decide⟩ + f ⟨10, by decide⟩ + f ⟨11, by decide⟩
      + f ⟨12, by decide⟩ + f ⟨13, by decide⟩ + f ⟨14, by decide⟩ + f ⟨15, by decide⟩ = z + ∑ d : Fin 16, f d := by
  simp only [Fin.sum_univ_succ, Fin.sum_univ_zero, add_zero, add_assoc]
  rfl

end Cert.Rbf

end
-- ==== Proof.RbfPoint.lean ====
/-
  What the body leaves at one entry of its two output blocks, as the specification's formulas of the loaded blocks.

  Scaled inputs: the scaled tile laid out as a [1, 4096, 16] block.
  Squared distances: the stretches' running tiles are chained, which gives the zero word plus the sixteen squares in
  feature order, hence the zero word plus their sum over Fin 16; each square is then written with the loaded tile,
  the loaded scale row and the loaded centres.
-/
import proofs.«105791_j71038759076230_1_alg».proof.Proof.RbfBody
import proofs.«105791_j71038759076230_1_alg».proof.Proof.RbfSpec

noncomputable section

open scoped BigOperators

namespace Cert.Rbf

open Idealize.ShloMosaic Idealize.ShloMosaic.ValueIdx Cert.KernelIdeal Cert.KernelIdeal.Gen

variable (x0 : Vec Ideal S1x4096x16 .f32) (x1 : Vec Ideal S64x16 .f32) (x2 : Vec Ideal S1x16 .f32)

/-- Feature d's square at (p, q) in terms of the loaded blocks. -/
theorem sqr_eq (p : Fin 4096) (q : Fin 64) (d : Fin 16) :
    sqr (k0_pay1 x2) (k0_pay2 x2 x0) x1 p q d
      = sqTerm (x0 (ix3 (0 : Fin 1) p d)) (x2 (ix2 (0 : Fin 1) d)) (x1 (ix2 q d)) := by
  unfold sqr dif sqTerm
  rw [scaled_apply, scale_apply]

/-- The squared-distance block at (u, p, q): the zero word plus the sum over the features of the squared differences
    between row p of the scaled tile and the scaled centre q. -/
theorem payO_apply (u : Fin 1) (p : Fin 4096) (q : Fin 64) :
    k0_pay12 (k0_pay1 x2) (k0_pay2 x2 x0) x1
        (k0_pay10 (k0_pay1 x2) (k0_pay2 x2 x0) x1
          (k0_pay7 (k0_pay1 x2) (k0_pay2 x2 x0) x1 (k0_pay4 x2 x0 x1) (k0_pay5 x2 x0) (k0_pay6 x2 x1))
          (k0_pay8 (k0_pay1 x2)) (k0_pay9 x1))
        (k0_pay11 (k0_pay1 x2) (k0_pay2 x2 x0) x1) (ix3 u p q)
      = Ideal.ofBits .f32 0x00000000#32
        + ∑ d : Fin 16, sqTerm (x0 (ix3 (0 : Fin 1) p d)) (x2 (ix2 (0 : Fin 1) d)) (x1 (ix2 q d)) := by
  rw [acc_11_15, acc_7_10, acc_2_6, acc_0_1, dif_11]
  refine (chain16 _ (sqr (k0_pay1 x2) (k0_pay2 x2 x0) x1 p q)).trans ?_
  exact congrArg (_ + ·) (Finset.sum_congr rfl fun d _ => sqr_eq x0 x1 x2 p q d)

/-- The scaled-input block at (u, p, d): the loaded tile's entry times the scale's. -/
theorem payH_apply (u : Fin 1) (p : Fin 4096) (d : Fin 16) :
    k0_pay3 x2 x0 (ix3 u p d) = x0 (ix3 (0 : Fin 1) p d) * x2 (ix2 (0 : Fin 1) d) := by
  unfold k0_pay3
  try dsimp only
  rw [shapeCast_ab_1ab_apply, scaled_apply]

end Cert.Rbf

end
-- ==== Proof.RbfBlocksO.lean ====
/-
  The squared-distance array after the run is the specification's function of the argument arrays.

  What point t writes back is block t of that function: an entry (u, p, q) of the block lies at row
  4096 j + p of batch entry b in the array, the input tile's entry (0, p, d) lies at the same row of the input array,
  and the centres and the scale row are read whole.  The sixteen blocks cover the array (row r of batch entry b is in
  the block of point (b, r / 4096)), so the whole array is that function.
-/
import proofs.«105791_j71038759076230_1_alg».proof.Proof.RbfGrid
import proofs.«105791_j71038759076230_1_alg».proof.Proof.RbfPoint

noncomputable section

open scoped BigOperators

namespace Cert.Rbf

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- What point t writes back to the squared-distance array is block t of the specification's function of the arrays
    as the region finds them. -/
theorem flushedO_eq (c : Dev nD) (t : Fin cfg0.N) :
    (dats m 0 c).flushed 3 t = ((cfg0.win 3).blk t).view.read (Elt Ideal)
      (specO (V m c main_arg0) (V m c main_arg1) (scaleAt m c)) := by
  rw [Value.flushed3]
  unfold out0_3
  rw [View.canon_unit_zero zero3]
  simp only [View.ld_unit_zero (S := S1x16) zero2, View.ld_unit_zero (S := S1x4096x16) zero3,
    View.ld_unit_zero (S := S64x16) zero2]
  obtain ⟨e0, e1, e2, e3, e4, e5, e6, e7, e8, e9, e10, e11, e12⟩ := grid_facts t
  funext y
  obtain ⟨u, p, q, rfl⟩ : ∃ (u : Fin 1) (p : Fin 4096) (q : Fin 64), y = ix3 u p q := ⟨y 0, y 1, y 2, eq_ix3 y⟩
  refine (payO_apply (iblk m c 0 t) (iblk m c 1 t) (iblk m c 2 t) u p q).trans ?_
  have hu : u.val = 0 := by omega
  have hp : p.val < 4096 := p.isLt
  have hemb : ((cfg0.win 3).blk t).view.emb (ix3 u p q)
      = ix3 (⟨win0_3.index t (0 : Fin 3), by omega⟩ : Fin 4)
          (⟨win0_3.index t (1 : Fin 3) * 4096 + p.val, by omega⟩ : Fin 16384) q := by
    funext a; apply Fin.ext
    match a with
    | ⟨0, _⟩ => show win0_3.index t (0 : Fin 3) * 1 + 1 * u.val = win0_3.index t (0 : Fin 3); omega
    | ⟨1, _⟩ => show win0_3.index t (1 : Fin 3) * 4096 + 1 * p.val = win0_3.index t (1 : Fin 3) * 4096 + p.val; omega
    | ⟨2, _⟩ => show win0_3.index t (2 : Fin 3) * 64 + 1 * q.val = q.val; omega
  show _ = specO (V m c main_arg0) (V m c main_arg1) (scaleAt m c) (((cfg0.win 3).blk t).view.emb (ix3 u p q))
  rw [hemb]
  show _ = Ideal.ofBits .f32 0x00000000#32 + ∑ d : Fin 16, sqTerm
    (V m c main_arg0 (ix3 (⟨win0_3.index t (0 : Fin 3), by omega⟩ : Fin 4)
      (⟨win0_3.index t (1 : Fin 3) * 4096 + p.val, by omega⟩ : Fin 16384) d)) (scaleAt m c d) (V m c main_arg1 (ix2 q d))
  refine congrArg (_ + ·) (Finset.sum_congr rfl fun d _ => ?_)
  have r0 : iblk m c 0 t (ix3 (0 : Fin 1) p d) = V m c main_arg0 (ix3 (⟨win0_3.index t (0 : Fin 3), by omega⟩ : Fin 4)
      (⟨win0_3.index t (1 : Fin 3) * 4096 + p.val, by omega⟩ : Fin 16384) d) := by
    show V m c main_arg0 (((cfg0.win 0).blk t).view.emb (ix3 (0 : Fin 1) p d)) = _
    refine congrArg (V m c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 4096 + 1 * p.val = win0_3.index t (1 : Fin 3) * 4096 + p.val; omega
    | ⟨2, _⟩ => show win0_0.index t (2 : Fin 3) * 16 + 1 * d.val = d.val; omega
  have r1 : iblk m c 1 t (ix2 q d) = V m c main_arg1 (ix2 q d) := by
    show V m c main_arg1 (((cfg0.win 1).blk t).view.emb (ix2 q d)) = _
    refine congrArg (V m c main_arg1) (funext fun a => Fin.ext ?_)
    match a with
    | ⟨0, _⟩ => show win0_1.index t (0 : Fin 2) * 64 + 1 * q.val = q.val; omega
    | ⟨1, _⟩ => show win0_1.index t (1 : Fin 2) * 16 + 1 * d.val = d.val; omega
  have r2 : iblk m c 2 t (ix2 (0 : Fin 1) d) = scaleAt m c d := by
    show V m c main_v0 (((cfg0.win 2).blk t).view.emb (ix2 (0 : Fin 1) d)) = V m c main_v0 (ix2 (0 : Fin 1) d)
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 16 + 1 * d.val = d.val; omega
  rw [r0, r1, r2]

/-- An index of the array is in point t's block iff each coordinate is in the block's range on its axis. -/
theorem mem_blkO (t : Fin cfg0.N) (i : S4x16384x64.Idx) :
    i ∈ ((cfg0.win 3).blk t).view.set ↔ ∀ a : Fin 3, win0_3.index t a * S1x4096x64.size a ≤ (i a).val
      ∧ (i a).val < win0_3.index t a * S1x4096x64.size a + S1x4096x64.size a := by
  show i ∈ ((View.whole main_v1_0).slice (win0_3.rect t)).set ↔ _
  rw [View.set_slice_whole, Rect.mem_set_unit]
  exact Iff.rfl

/-- Every index of the array is in some point's block: the point of its batch entry and of its row's block. -/
theorem coverO (i : S4x16384x64.Idx) :
    ∃ t : Fin cfg0.N, (cfg0.win 3).flush t = true ∧ i ∈ ((cfg0.win 3).blk t).view.set := by
  have hi0 : (i 0).val < 4 := (i 0).isLt
  have hi1 : (i 1).val < 16384 := (i 1).isLt
  have hi2 : (i 2).val < 64 := (i 2).isLt
  obtain ⟨t, ht⟩ := onto3 ⟨(i 0).val, hi0⟩ ⟨(i 1).val / 4096, by omega⟩
  have q0 : win0_3.index t (0 : Fin 3) = (i 0).val := congrFun ht 0
  have q1 : win0_3.index t (1 : Fin 3) = (i 1).val / 4096 := congrFun ht 1
  have q2 : win0_3.index t (2 : Fin 3) = 0 := congrFun ht 2
  refine ⟨t, flush0_3 t, ?_⟩
  rw [mem_blkO]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 64 ≤ (i 2).val ∧ (i 2).val < win0_3.index t (2 : Fin 3) * 64 + 64; omega

/-- The squared-distance array after the run, as the specification's function of the launch arguments. -/
theorem finalO (c : Dev nD) :
    (dats m 0 c).arrAt 3 cfg0.N = specO (m ((c : Thread nD τ).loc main_arg0)) (m ((c : Thread nD τ).loc main_arg1))
      (fun d => m ((c : Thread nD τ).loc main_arg2) (ix4 (0 : Fin 1) (0 : Fin 1) d (0 : Fin 1))) := by
  rw [(dats m 0 c).arrAt_eq_of_cover 3 (specO (V m c main_arg0) (V m c main_arg1) (scaleAt m c))
    (fun t _ => flushedO_eq m c t) coverO]
  rw [V_main_arg0, V_main_arg1]
  exact congrArg (specO _ _) (funext fun d => scaleAt_eq m c d)

end Cert.Rbf

end
-- ==== Proof.RbfBlocksH.lean ====
/-
  The scaled-input array after the run is the specification's function of the argument arrays.

  What point t writes back is block t of that function: the block's entry (u, p, d) is the input tile's entry
  (0, p, d) times the scale of feature d, and both lie at row 4096 j + p of batch entry b in their arrays.  The sixteen
  blocks cover the array.
-/
import proofs.«105791_j71038759076230_1_alg».proof.Proof.RbfGrid
import proofs.«105791_j71038759076230_1_alg».proof.Proof.RbfPoint

noncomputable section

namespace Cert.Rbf

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- What point t writes back to the scaled-input array is block t of the specification's function of the arrays as
    the region finds them. -/
theorem flushedH_eq (c : Dev nD) (t : Fin cfg0.N) :
    (dats m 0 c).flushed 4 t = ((cfg0.win 4).blk t).view.read (Elt Ideal) (specHx (V m c main_arg0) (scaleAt m c)) := by
  rw [Value.flushed4]
  unfold out0_4
  rw [View.canon_unit_zero zero3]
  simp only [View.ld_unit_zero (S := S1x16) zero2, View.ld_unit_zero (S := S1x4096x16) zero3]
  obtain ⟨e0, e1, e2, e3, e4, e5, e6, e7, e8, e9, e10, e11, e12⟩ := grid_facts t
  funext y
  obtain ⟨u, p, d, rfl⟩ : ∃ (u : Fin 1) (p : Fin 4096) (d : Fin 16), y = ix3 u p d := ⟨y 0, y 1, y 2, eq_ix3 y⟩
  refine (payH_apply (iblk m c 0 t) (iblk m c 2 t) u p d).trans ?_
  have hu : u.val = 0 := by omega
  have hp : p.val < 4096 := p.isLt
  have hemb : ((cfg0.win 4).blk t).view.emb (ix3 u p d)
      = ix3 (⟨win0_3.index t (0 : Fin 3), by omega⟩ : Fin 4)
          (⟨win0_3.index t (1 : Fin 3) * 4096 + p.val, by omega⟩ : Fin 16384) d := by
    funext a; apply Fin.ext
    match a with
    | ⟨0, _⟩ => show win0_4.index t (0 : Fin 3) * 1 + 1 * u.val = win0_3.index t (0 : Fin 3); omega
    | ⟨1, _⟩ => show win0_4.index t (1 : Fin 3) * 4096 + 1 * p.val = win0_3.index t (1 : Fin 3) * 4096 + p.val; omega
    | ⟨2, _⟩ => show win0_4.index t (2 : Fin 3) * 16 + 1 * d.val = d.val; omega
  show _ = specHx (V m c main_arg0) (scaleAt m c) (((cfg0.win 4).blk t).view.emb (ix3 u p d))
  rw [hemb]
  have r0 : iblk m c 0 t (ix3 (0 : Fin 1) p d) = V m c main_arg0 (ix3 (⟨win0_3.index t (0 : Fin 3), by omega⟩ : Fin 4)
      (⟨win0_3.index t (1 : Fin 3) * 4096 + p.val, by omega⟩ : Fin 16384) d) := by
    show V m c main_arg0 (((cfg0.win 0).blk t).view.emb (ix3 (0 : Fin 1) p d)) = _
    refine congrArg (V m c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 4096 + 1 * p.val = win0_3.index t (1 : Fin 3) * 4096 + p.val; omega
    | ⟨2, _⟩ => show win0_0.index t (2 : Fin 3) * 16 + 1 * d.val = d.val; omega
  have r2 : iblk m c 2 t (ix2 (0 : Fin 1) d) = scaleAt m c d := by
    show V m c main_v0 (((cfg0.win 2).blk t).view.emb (ix2 (0 : Fin 1) d)) = V m c main_v0 (ix2 (0 : Fin 1) d)
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 16 + 1 * d.val = d.val; omega
  rw [r0, r2]
  rfl

/-- An index of the array is in point t's block iff each coordinate is in the block's range on its axis. -/
theorem mem_blkH (t : Fin cfg0.N) (i : S4x16384x16.Idx) :
    i ∈ ((cfg0.win 4).blk t).view.set ↔ ∀ a : Fin 3, win0_4.index t a * S1x4096x16.size a ≤ (i a).val
      ∧ (i a).val < win0_4.index t a * S1x4096x16.size a + S1x4096x16.size a := by
  show i ∈ ((View.whole main_v1_1).slice (win0_4.rect t)).set ↔ _
  rw [View.set_slice_whole, Rect.mem_set_unit]
  exact Iff.rfl

/-- Every index of the array is in some point's block: the point of its batch entry and of its row's block. -/
theorem coverH (i : S4x16384x16.Idx) :
    ∃ t : Fin cfg0.N, (cfg0.win 4).flush t = true ∧ i ∈ ((cfg0.win 4).blk t).view.set := by
  have hi0 : (i 0).val < 4 := (i 0).isLt
  have hi1 : (i 1).val < 16384 := (i 1).isLt
  have hi2 : (i 2).val < 16 := (i 2).isLt
  obtain ⟨t, ht⟩ := onto4 ⟨(i 0).val, hi0⟩ ⟨(i 1).val / 4096, by omega⟩
  have q0 : win0_4.index t (0 : Fin 3) = (i 0).val := congrFun ht 0
  have q1 : win0_4.index t (1 : Fin 3) = (i 1).val / 4096 := congrFun ht 1
  have q2 : win0_4.index t (2 : Fin 3) = 0 := congrFun ht 2
  refine ⟨t, flush0_4 t, ?_⟩
  rw [mem_blkH]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 4096 ≤ (i 1).val ∧ (i 1).val < win0_4.index t (1 : Fin 3) * 4096 + 4096; omega
  | ⟨2, _⟩ => show win0_4.index t (2 : Fin 3) * 16 ≤ (i 2).val ∧ (i 2).val < win0_4.index t (2 : Fin 3) * 16 + 16; omega

/-- The scaled-input array after the run, as the specification's function of the launch arguments. -/
theorem finalH (c : Dev nD) :
    (dats m 0 c).arrAt 4 cfg0.N = specHx (m ((c : Thread nD τ).loc main_arg0))
      (fun d => m ((c : Thread nD τ).loc main_arg2) (ix4 (0 : Fin 1) (0 : Fin 1) d (0 : Fin 1))) := by
  rw [(dats m 0 c).arrAt_eq_of_cover 4 (specHx (V m c main_arg0) (scaleAt m c)) (fun t _ => flushedH_eq m c t) coverH]
  rw [V_main_arg0]
  exact congrArg (specHx _) (funext fun d => scaleAt_eq m c d)

end Cert.Rbf

end
-- ==== Proof.RbfRef.lean ====
/-
  The reference's two results are the specification's functions of its arguments.

  Read one operation at a time, the reference multiplies the inputs by the scale broadcast along the feature axis,
  forms the [16, 64] table  s(d) * c(k, d)  from the transposed centres, spreads both over [4, 16384, 16, 64],
  subtracts, squares, and sums over the feature axis onto a zero start value.  At an index every broadcast and the
  transpose read one entry of their operand, and the scale's entry d is the scale argument's entry (0, 0, d, 0).
-/
import proofs.«105791_j71038759076230_1_alg».proof.Proof.Gen.ReferenceIdeal.Read
import proofs.«105791_j71038759076230_1_alg».proof.Proof.RbfSpec

noncomputable section

open scoped BigOperators

namespace Cert.Rbf.Ref

open Cert.ReferenceIdeal Cert.ReferenceIdeal.Gen Cert.ReferenceIdeal.Read Idealize.ShloMosaic Idealize.ShloMosaic.ValueIdx
open Cert.Rbf

variable (x0 : (⟨S4x16384x16, .f32⟩ : BufTy).Contents (Elt Ideal)) (x1 : (⟨S64x16, .f32⟩ : BufTy).Contents (Elt Ideal))
  (x2 : (⟨S1x1x16x1, .f32⟩ : BufTy).Contents (Elt Ideal))

/-- The reference's scaled inputs. -/
theorem refHx_eq : val_main_v3 (F := Ideal) x0 x2
    = specHx x0 (fun d => x2 (ix4 (0 : Fin 1) (0 : Fin 1) d (0 : Fin 1))) := by
  funext i
  have h2 : (i 2).val < 16 := (i 2).isLt
  rw [val_main_v3_apply, val_main_v2_apply, val_main_v1_apply, val_main_v0_apply]
  show x0 i * x2 (idx_main_v0 (idx_main_v1 (idx_main_v2 i)))
    = x0 i * x2 (ix4 (0 : Fin 1) (0 : Fin 1) (⟨(i 2).val, (i 2).isLt⟩ : Fin 16) (0 : Fin 1))
  refine congrArg (x0 i * ·) (congrArg x2 (funext fun a => Fin.ext ?_))
  match a with
  | ⟨0, _⟩ => rfl
  | ⟨1, _⟩ => rfl
  | ⟨2, _⟩ => show (i 2).val / 1 % 16 = (i 2).val; omega
  | ⟨3, _⟩ => rfl

/-- The reference's squared distances. -/
theorem refO_eq : val_main_v14 (F := Ideal) x0 x1 x2
    = specO x0 x1 (fun d => x2 (ix4 (0 : Fin 1) (0 : Fin 1) d (0 : Fin 1))) := by
  funext i
  rw [val_main_v14_apply]
  show Ideal.ofBits .f32 0x00000000#32 + ∑ k : Fin 16, val_main_v13 (F := Ideal) x0 x1 x2 (idx_main_v14 i k)
    = Ideal.ofBits .f32 0x00000000#32 + ∑ d : Fin 16,
        sqTerm (x0 (ix3 (⟨(i 0).val, (i 0).isLt⟩ : Fin 4) (⟨(i 1).val, (i 1).isLt⟩ : Fin 16384) d))
          (x2 (ix4 (0 : Fin 1) (0 : Fin 1) d (0 : Fin 1))) (x1 (ix2 (⟨(i 2).val, (i 2).isLt⟩ : Fin 64) d))
  refine congrArg (_ + ·) (Finset.sum_congr rfl fun k _ => ?_)
  have hk : k.val < 16 := k.isLt
  have e0 : idx_main_v8 (idx_main_v10 (idx_main_v14 i k))
      = ix3 (⟨(i 0).val, (i 0).isLt⟩ : Fin 4) (⟨(i 1).val, (i 1).isLt⟩ : Fin 16384) k :=
    funext fun a => Fin.ext (by match a with | ⟨0, _⟩ => rfl | ⟨1, _⟩ => rfl | ⟨2, _⟩ => rfl)
  -- the scale is read through two chains of broadcasts (one for the inputs, one for the centres' table); both chains
  -- land on the scale argument's entry (0, 0, k, 0)
  have e1 : idx_main_v0 (idx_main_v1 (idx_main_v2 (idx_main_v8 (idx_main_v10 (idx_main_v14 i k)))))
      = ix4 (0 : Fin 1) (0 : Fin 1) k (0 : Fin 1) :=
    funext fun a => Fin.ext (by
      match a with
      | ⟨0, _⟩ => rfl
      | ⟨1, _⟩ => rfl
      | ⟨2, _⟩ => show k.val / 1 % 16 = k.val; omega
      | ⟨3, _⟩ => rfl)
  have e3 : idx_main_v5 (idx_main_v9 (idx_main_v11 (idx_main_v14 i k))) = ix2 (⟨(i 2).val, (i 2).isLt⟩ : Fin 64) k :=
    funext fun a => Fin.ext (by match a with | ⟨0, _⟩ => rfl | ⟨1, _⟩ => rfl)
  rw [val_main_v13_apply, val_main_v12_apply, val_main_v10_apply, val_main_v8_apply, val_main_v3_apply, val_main_v2_apply,
    val_main_v1_apply, val_main_v0_apply, val_main_v11_apply, val_main_v9_apply, val_main_v7_apply, val_main_v6_apply,
    val_main_v4_apply, val_main_v0_apply, val_main_v5_apply, e0, e1, e3]
  rfl

end Cert.Rbf.Ref

end
-- ==== Proof.lean ====
/-
  A radial-basis layer: squared distances of scaled inputs to scaled centres.

  Arguments: x : [4, 16384, 16], centres c : [64, 16], a per-feature scale s (given as [1, 1, 16, 1]).
  Results, over the extended reals:
      Hx(b, n, d) = x(b, n, d) * s(d)
      O(b, n, k)  = 0 + Σ_d (x(b, n, d) * s(d) - s(d) * c(k, d))²

  The kernel walks a 4 x 4 grid; point (b, j) loads rows 4096 j .. 4096 j + 4095 of batch entry b, multiplies them by
  the scale row, writes that tile back as its block of Hx, and adds the sixteen features' squared differences one
  after the other onto a zero tile, which it writes back as its block of O.  The reference forms the same products
  on whole arrays and sums over the feature axis.  The two agree because a left-nested sum of sixteen terms onto a
  start value is the start value plus the sum over Fin 16 (addition on the extended reals is associative and
  commutative; no other law is used, so the inputs' finiteness is not needed for the values).

  Frames: the kernel's two frames are the generated ones; the reference's frame is its generated run with the results
  dropped.  The idealization rewrote nothing, so its conjunct is trivial.
-/
import proofs.«105791_j71038759076230_1_alg».proof.Defs
import proofs.«105791_j71038759076230_1_alg».proof.Proof.Gen.Kernel
import proofs.«105791_j71038759076230_1_alg».proof.Proof.Gen.Kernel.Skeleton
import proofs.«105791_j71038759076230_1_alg».proof.Proof.Gen.Kernel.Launch
import proofs.«105791_j71038759076230_1_alg».proof.Proof.Gen.Kernel.Points
import proofs.«105791_j71038759076230_1_alg».proof.Proof.Gen.Kernel.Frame
import proofs.«105791_j71038759076230_1_alg».proof.Proof.Gen.KernelIdeal
import proofs.«105791_j71038759076230_1_alg».proof.Proof.Gen.KernelIdeal.Skeleton
import proofs.«105791_j71038759076230_1_alg».proof.Proof.Gen.KernelIdeal.Launch
import proofs.«105791_j71038759076230_1_alg».proof.Proof.Gen.KernelIdeal.Points
import proofs.«105791_j71038759076230_1_alg».proof.Proof.Gen.KernelIdeal.Frame
import proofs.«105791_j71038759076230_1_alg».proof.Proof.Gen.ReferenceIdeal
import proofs.«105791_j71038759076230_1_alg».proof.Proof.Gen.Pre_finite_inputs
import proofs.«105791_j71038759076230_1_alg».proof.Proof.Gen.KernelIdeal.Value
import proofs.«105791_j71038759076230_1_alg».proof.Proof.Gen.ReferenceIdeal.Run
import proofs.«105791_j71038759076230_1_alg».proof.Proof.Gen.ReferenceIdeal.Read
import proofs.«105791_j71038759076230_1_alg».proof.Proof.RbfBlocksO
import proofs.«105791_j71038759076230_1_alg».proof.Proof.RbfBlocksH
import proofs.«105791_j71038759076230_1_alg».proof.Proof.RbfRef
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference runs and leaves its arguments as they were: its run, the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both programs end with O and Hx at the specification's functions of the (agreeing) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Rbf.specO (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (fun d => m ((c.tc : Thread Cert.KernelIdeal.nD Cert.KernelIdeal.τ).loc Cert.KernelIdeal.main_arg2)
        (ix4 (0 : Fin 1) (0 : Fin 1) d (0 : Fin 1))),
    fun c => Cert.Rbf.specHx (m ((c.tc : Thread Cert.KernelIdeal.nD Cert.KernelIdeal.τ).loc Cert.KernelIdeal.main_arg0))
      (fun d => m ((c.tc : Thread Cert.KernelIdeal.nD Cert.KernelIdeal.τ).loc Cert.KernelIdeal.main_arg2)
        (ix4 (0 : Fin 1) (0 : Fin 1) d (0 : Fin 1))), ?_, ?_⟩
  · exact (θ_run Cert.KernelIdeal.defs _ _).mono (fun r h c =>
      ⟨(h c).1.trans (Cert.Rbf.finalO m c), (h c).2.1.trans (Cert.Rbf.finalH m c), (h c).2.2⟩)
      (Cert.KernelIdeal.Value.run_blocks (F := Ideal) m ρ)
  · refine (θ_run Cert.ReferenceIdeal.defs _ _).mono (fun r h c => ⟨?_, ?_, (h c).2.2⟩)
      (Cert.ReferenceIdeal.Value.run (F := Ideal) m' ρ')
    · refine (h c).1.trans ?_
      rw [(hagree c).1, (hagree c).2.1, (hagree c).2.2]
      exact (Cert.ReferenceIdeal.Read.val_main_v14_eq _ _ _).trans (Cert.Rbf.Ref.refO_eq _ _ _)
    · refine (h c).2.1.trans ?_
      rw [(hagree c).1, (hagree c).2.2]
      exact (Cert.ReferenceIdeal.Read.val_main_v3_eq _ _).trans (Cert.Rbf.Ref.refHx_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
